-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S512x1 : Shape := ⟨2, ![512, 1]⟩
abbrev S1 : Shape := ⟨1, ![1]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S262144x512 .f32) (main_arg1 : FVec F S512x1 .f32) (main_arg2 : FVec F S1 .f32) (main_arg3 : IVec S512x1 32) (main_arg4 : IVec S1 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S262144x512 : Shape := ⟨2, ![262144, 512]⟩
abbrev S512x1 : Shape := ⟨2, ![512, 1]⟩
abbrev S1 : Shape := ⟨1, ![1]⟩
abbrev S262144x1 : Shape := ⟨2, ![262144, 1]⟩
abbrev S4096x512 : Shape := ⟨2, ![4096, 512]⟩
abbrev S4096x1 : Shape := ⟨2, ![4096, 1]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S512x1, .f32⟩
  | .hbm, ⟨2, _⟩ => ⟨S1, .f32⟩
  | .hbm, ⟨3, _⟩ => ⟨S512x1, .i32⟩
  | .hbm, ⟨4, _⟩ => ⟨S1, .i32⟩
  | .hbm, ⟨5, _⟩ => ⟨S262144x1, .f32⟩
  | .local _ .vmem, ⟨0, _⟩ => ⟨S4096x512, .f32⟩
  | .local _ .vmem, ⟨1, _⟩ => ⟨S4096x512, .f32⟩
  | .local _ .vmem, ⟨2, _⟩ => ⟨S512x1, .f32⟩
  | .local _ .vmem, ⟨3, _⟩ => ⟨S1, .f32⟩
  | .local _ .vmem, ⟨4, _⟩ => ⟨S512x1, .i32⟩
  | .local _ .vmem, ⟨5, _⟩ => ⟨S1, .i32⟩
  | .local _ .vmem, ⟨6, _⟩ => ⟨S4096x1, .f32⟩
  | .local _ .vmem, ⟨7, _⟩ => ⟨S4096x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  shapeCasts_S1_S1x1 : S1.ShapeCasts S1x1
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .i32 = 32 ∨ (Rect.block (s := S512x1) S512x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .i32 = 32 ∨ (Rect.block (s := S1) S1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x1.size a ≤ S262144x1.size a
  hwx0_5 : ∀ i : grid0.Coords, EltTy.bits .f32 = 32 ∨ (Rect.block (s := S262144x1) S4096x1.size (cc0_transform_5 i) (hinb0_5 i)).WholeWords (EltTy.packing .f32)

variable [Facts₀]

def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x512 : Shape := ⟨2, ![262144, 512]⟩
abbrev S512x1 : Shape := ⟨2, ![512, 1]⟩
abbrev S1 : Shape := ⟨1, ![1]⟩
abbrev S262144x1 : Shape := ⟨2, ![262144, 1]⟩
abbrev S1x1 : Shape := ⟨2, ![1, 1]⟩

abbrev nBuf : Space → Nat
  | .hbm => 14
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S512x1, .f32⟩
  | .hbm, ⟨2, _⟩ => ⟨S1, .f32⟩
  | .hbm, ⟨3, _⟩ => ⟨S512x1, .i32⟩
  | .hbm, ⟨4, _⟩ => ⟨S1, .i32⟩
  | .hbm, ⟨5, _⟩ => ⟨S512x1, .f32⟩
  | .hbm, ⟨6, _⟩ => ⟨S512x1, .f32⟩
  | .hbm, ⟨7, _⟩ => ⟨S1, .f32⟩
  | .hbm, ⟨8, _⟩ => ⟨S1, .f32⟩
  | .hbm, ⟨9, _⟩ => ⟨S262144x1, .f32⟩
  | .hbm, ⟨10, _⟩ => ⟨S1x1, .f32⟩
  | .hbm, ⟨11, _⟩ => ⟨S262144x1, .f32⟩
  | .hbm, ⟨12, _⟩ => ⟨S262144x1, .f32⟩
  | .hbm, ⟨13, _⟩ => ⟨S262144x1, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  dot_S262144x512_S512x1_S262144x1_1_0_0_1_n_n_wf : DotDims.WF S262144x512 S512x1 S262144x1 [1] [0] [0] [1] [] []

variable [Facts₀]

def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.MaskedAffine.lean ====
/-
  The function both programs compute, over the extended reals. A weight column `w` of 512 entries and a one-entry bias
  `b` are first masked: each is multiplied by the integer its mask holds, read as a real number (any 32-bit integer,
  not only 0 and 1). Row `p` of the result is then `tanh (∑ k, x p k · (w k · mask_w k) + b · mask_b)`: a row of `x`
  against the masked column, plus the masked bias, through the hyperbolic tangent (−1 and 1 at the two infinities).
  The function is stated for any number of rows, because a block of consecutive rows of the result depends only on
  the same rows of `x`: the block of the whole result is the result of the block (`rows_block`).
-/
import Idealize.ShloMosaic.PureOps.Ideal
import Idealize.ShloMosaic.PureOps.Ideal.Laws
import Idealize.ShloMosaic.Lib.ValueIdx
import proofs.«140416_j31482110280318_1_alg».proof.Proof.LibSageSpec

noncomputable section

open scoped BigOperators

namespace Cert.MaskedAffine

open Idealize.ShloMosaic Idealize.ShloMosaic.ValueIdx Idealize.ShloMosaic.SageSpec

/-- A vector of one entry. -/
abbrev One (α : Type) : Type := (⟨1, ![1]⟩ : Shape).Idx → α

/-- A column of 512 entries. -/
abbrev Col (α : Type) : Type := (⟨2, ![512, 1]⟩ : Shape).Idx → α

/-- The integer a mask word holds, as an extended real: what a signed integer-to-float conversion gives at the
    extended reals. -/
def maskVal (z : BitVec 32) : EReal := FloatOps.sitofp (F := Ideal) .f32 z

/-- The mask word's integer is a real number, never an infinity. -/
theorem maskVal_eq (z : BitVec 32) : maskVal z = ((z.toInt : ℝ) : EReal) := rfl

/-- The masked weight column: entry `k` is `w k · mask_w k`. -/
def maskedCol (w : Col EReal) (mw : Col (BitVec 32)) : Mat 512 1 := fun j => w j * maskVal (mw j)

/-- The masked bias: `b · mask_b`. -/
def maskedBias (b : One EReal) (mb : One (BitVec 32)) : EReal := b (ix1 0) * maskVal (mb (ix1 0))

/-- The result on `n` rows: entry (p, 0) is `tanh (row p of x against the masked column, plus the masked bias)`. -/
def affineTanh {n : Nat} (x : Mat n 512) (w : Col EReal) (b : One EReal) (mw : Col (BitVec 32)) (mb : One (BitVec 32)) :
    Mat n 1 :=
  fun i => Ideal.tanh (rowDot x (maskedCol w mw) (i 0) (i 1) + maskedBias b mb)

/-- Rows `off, …, off + r − 1` of the result on `n` rows are the result on those `r` rows of `x` alone: entry
    (off + p, q) reads only row off + p of `x`. -/
theorem rows_block {n r : Nat} (off : Nat) (hoff : off + r ≤ n) (x : Mat n 512) (w : Col EReal) (b : One EReal)
    (mw : Col (BitVec 32)) (mb : One (BitVec 32)) (p : Fin r) (q : Fin 1) :
    affineTanh x w b mw mb (ix2 ⟨off + p.val, by have := p.isLt; omega⟩ q)
      = affineTanh (n := r) (fun y => x (ix2 ⟨off + (y 0).val, by have := idx2_lt0 y; omega⟩ (y 1))) w b mw mb (ix2 p q) := rfl

/-- A one-entry vector has one index. -/
instance : Subsingleton (⟨1, ![1]⟩ : Shape).Idx :=
  ⟨fun a b => funext fun d => match d with
    | ⟨0, _⟩ => Fin.ext (by
        show (a 0).val = (b 0).val
        have ha : (a 0).val < 1 := (a 0).isLt
        have hb : (b 0).val < 1 := (b 0).isLt
        omega)⟩

/-- So a one-entry vector read anywhere is read at its entry. -/
theorem one_apply {α : Type} (v : One α) (k : (⟨1, ![1]⟩ : Shape).Idx) : v k = v (ix1 0) :=
  congrArg v (Subsingleton.elim _ _)

end Cert.MaskedAffine

end
-- ==== Proof.KernelBlock.lean ====
/-
  One grid point of the kernel, as a function of the blocks it loads: a [4096 × 512] block of `x`, the weight column,
  the bias and the two masks. It masks the column and the bias, multiplies the block with the masked column on the
  matrix unit into a zero accumulator, adds the masked bias to every row and applies tanh. A change of float format is
  the identity on the extended reals, so the product is the exact one, and the stored [4096 × 1] block is
  `affineTanh` on the block's 4096 rows.
-/
import proofs.«140416_j31482110280318_1_alg».proof.Proof.Gen.KernelIdeal.Skeleton
import proofs.«140416_j31482110280318_1_alg».proof.Proof.MaskedAffine
import Idealize.ShloMosaic.Lib.Pipeline.Value

noncomputable section

namespace Cert.KernelIdeal.BlockValue

open Cert.KernelIdeal Cert.KernelIdeal.Gen
open Idealize.ShloMosaic Idealize.ShloMosaic.ValueIdx Idealize.ShloMosaic.SageSpec Cert.MaskedAffine

/-- The left operand of the kernel's product is read at (row, κ) … -/
theorem lhs_0 (i : S4096x1.Idx) (q : dot_S4096x512_S512x1_S4096x1_1_0_0_1_n_n.contr.Idx) :
    (dot_S4096x512_S512x1_S4096x1_1_0_0_1_n_n.lhsIdx i q 0).val = (i 0).val := by
  unfold DotDims.lhsIdx
  rw [dif_neg (show ¬(0 : Fin S4096x512.rank) ∈ dot_S4096x512_S512x1_S4096x1_1_0_0_1_n_n.lhsBatch by decide),
    dif_pos (show (0 : Fin S4096x512.rank) ∈ dot_S4096x512_S512x1_S4096x1_1_0_0_1_n_n.lhsNonContracting by decide)]
  rfl
theorem lhs_1 (i : S4096x1.Idx) (q : dot_S4096x512_S512x1_S4096x1_1_0_0_1_n_n.contr.Idx) :
    (dot_S4096x512_S512x1_S4096x1_1_0_0_1_n_n.lhsIdx i q 1).val = (q ⟨0, by decide⟩).val :=
  dot_S4096x512_S512x1_S4096x1_1_0_0_1_n_n.lhsIdx_val_of_single rfl i q
/-- … and the right operand at (κ, column). -/
theorem rhs_0 (i : S4096x1.Idx) (q : dot_S4096x512_S512x1_S4096x1_1_0_0_1_n_n.contr.Idx) :
    (dot_S4096x512_S512x1_S4096x1_1_0_0_1_n_n.rhsIdx i q 0).val = (q ⟨0, by decide⟩).val :=
  dot_S4096x512_S512x1_S4096x1_1_0_0_1_n_n.rhsIdx_val_of_single rfl i q
theorem rhs_1 (i : S4096x1.Idx) (q : dot_S4096x512_S512x1_S4096x1_1_0_0_1_n_n.contr.Idx) :
    (dot_S4096x512_S512x1_S4096x1_1_0_0_1_n_n.rhsIdx i q 1).val = (i 1).val := by
  unfold DotDims.rhsIdx
  rw [dif_neg (show ¬(1 : Fin S512x1.rank) ∈ dot_S4096x512_S512x1_S4096x1_1_0_0_1_n_n.rhsBatch by decide),
    dif_pos (show (1 : Fin S512x1.rank) ∈ dot_S4096x512_S512x1_S4096x1_1_0_0_1_n_n.rhsNonContracting by decide)]
  rfl

/-- The kernel's product contracts axis 1 of the block with axis 0 of the column: rows by columns. -/
theorem plainDot : PlainDot dot_S4096x512_S512x1_S4096x1_1_0_0_1_n_n where
  rank := rfl
  size := fun _ => rfl
  l0 := lhs_0
  l1 := fun i q _ => lhs_1 i q
  r0 := fun i q _ => rhs_0 i q
  r1 := rhs_1

/-- What one grid point stores, from what it loads: `affineTanh` on the 4096 rows of the loaded block. The product
    into the zero accumulator read at (p, 0) is row p against the masked column; the masked bias, viewed [1, 1] and
    broadcast down the rows, read anywhere is the masked bias. -/
theorem stored_eq (v0 : Vec Ideal S512x1 .f32) (v1 : Vec Ideal S512x1 .i32) (v4 : Vec Ideal S1 .f32) (v5 : Vec Ideal S1 .i32)
    (v9 : Vec Ideal S4096x512 .f32) :
    k0_pay1 (F := Ideal) v0 v1 v4 v5 v9 = affineTanh (n := 4096) v9 v0 v4 v1 v5 := by
  funext j
  unfold k0_pay1
  show Ideal.tanh (FloatOps.matmul dot_S4096x512_S512x1_S4096x1_1_0_0_1_n_n none
        (truncf .bf16 v9 bitsLt_bf16_f32 : FVec Ideal S4096x512 .bf16)
        (truncf .bf16 (mulf (F := Ideal) v0 (sitofp .f32 v1)) bitsLt_bf16_f32 : FVec Ideal S512x1 .bf16)
        (constant S4096x1 .f32 0x00000000#32) j
      + (broadcastTo S4096x1 (shapeCast S1x1 (mulf (F := Ideal) v4 (sitofp .f32 v5)) shapeCasts_S1_S1x1)
          broadcasts_S1x1_S4096x1 : FVec Ideal S4096x1 .f32) j) = _
  rw [matmul_zero_at plainDot]
  unfold broadcastTo shapeCast
  rw [one_apply (mulf (F := Ideal) v4 (sitofp .f32 v5))]
  rfl

end Cert.KernelIdeal.BlockValue

end
-- ==== Proof.KernelSide.lean ====
/-
  The kernel's result array after the run. The grid has 64 points; point t loads rows 4096·t … 4096·t + 4095 of `x`
  and the whole weight column, bias and masks, and writes back rows 4096·t … 4096·t + 4095 of the [262144 × 1] result.
  What it writes is `affineTanh` on its 4096 rows, which is that block of `affineTanh` on all rows; the 64 blocks
  cover every row (row r lies in block r / 4096), so the array ends holding `affineTanh` of the five arguments.
-/
import proofs.«140416_j31482110280318_1_alg».proof.Proof.Gen.KernelIdeal.Value
import proofs.«140416_j31482110280318_1_alg».proof.Proof.KernelBlock

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem
open Idealize.ShloMosaic.ValueIdx Idealize.ShloMosaic.SageSpec Cert.MaskedAffine
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The whole result: `affineTanh` of the argument arrays as the region finds them, on all 262144 rows. -/
abbrev whole (c : Dev nD) : S262144x1.Idx → EReal :=
  affineTanh (n := 262144) (V m c main_arg0) (V m c main_arg1) (V m c main_arg2) (V m c main_arg3) (V m c main_arg4)

/-- The index maps over the 64 points: the block of `x` and the block of the result are both block t along the rows;
    the column, the bias and the masks are always at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point t writes back is block t of the whole result. -/
theorem flushed_eq (c : Dev nD) (t : Fin cfg0.N) :
    (dats m 0 c).flushed 5 t = ((cfg0.win 5).blk t).view.read (Elt Ideal) (whole m c) := by
  rw [flushed5]
  unfold out0_5
  rw [View.canon_unit_zero zero2]
  simp only [View.ld_unit_zero (S := S512x1) zero2, View.ld_unit_zero (S := S1) zero1, View.ld_unit_zero (S := S4096x512) zero2]
  rw [stored_eq (iblk m c 1 t) (iblk m c 3 t) (iblk m c 2 t) (iblk m c 4 t) (iblk m c 0 t)]
  obtain ⟨e00, e01, e10, e11, e20, e30, e31, e40, e50, e51⟩ := idx_facts t
  have ht : t.val < 64 := t.isLt
  -- the block of `x` at point t is rows 4096·t … of `x`
  have hx : (iblk m c 0 t : Vec Ideal S4096x512 .f32)
      = fun y => V m c main_arg0 (ix2 ⟨t.val * 4096 + (y 0).val, by have := idx2_lt0 y; omega⟩ (y 1)) := by
    funext y
    show V m c main_arg0 (((cfg0.win 0).blk t).view.emb y) = _
    refine congrArg (V m c main_arg0) (funext fun a => Fin.ext ?_)
    match a with
    | ⟨0, _⟩ => show win0_0.index t (0 : Fin 2) * 4096 + 1 * (y 0).val = t.val * 4096 + (y 0).val; omega
    | ⟨1, _⟩ => show win0_0.index t (1 : Fin 2) * 512 + 1 * (y 1).val = (y 1).val; omega
  -- the column, the bias and the masks are read whole at every point
  have h1 : (iblk m c 1 t : Vec Ideal S512x1 .f32) = V m c main_arg1 := by
    funext y
    show V m c main_arg1 (((cfg0.win 1).blk t).view.emb y) = V m c main_arg1 y
    refine congrArg (V m c main_arg1) (funext fun a => Fin.ext ?_)
    match a with
    | ⟨0, _⟩ => show win0_1.index t (0 : Fin 2) * 512 + 1 * (y 0).val = (y 0).val; omega
    | ⟨1, _⟩ => show win0_1.index t (1 : Fin 2) * 1 + 1 * (y 1).val = (y 1).val; omega
  have h2 : (iblk m c 2 t : Vec Ideal S1 .f32) = V m c main_arg2 := by
    funext y
    show V m c main_arg2 (((cfg0.win 2).blk t).view.emb y) = V m c main_arg2 y
    refine congrArg (V m c main_arg2) (funext fun a => Fin.ext ?_)
    match a with
    | ⟨0, _⟩ => show win0_2.index t (0 : Fin 1) * 1 + 1 * (y 0).val = (y 0).val; omega
  have h3 : (iblk m c 3 t : Vec Ideal S512x1 .i32) = V m c main_arg3 := by
    funext y
    show V m c main_arg3 (((cfg0.win 3).blk t).view.emb y) = V m c main_arg3 y
    refine congrArg (V m c main_arg3) (funext fun a => Fin.ext ?_)
    match a with
    | ⟨0, _⟩ => show win0_3.index t (0 : Fin 2) * 512 + 1 * (y 0).val = (y 0).val; omega
    | ⟨1, _⟩ => show win0_3.index t (1 : Fin 2) * 1 + 1 * (y 1).val = (y 1).val; omega
  have h4 : (iblk m c 4 t : Vec Ideal S1 .i32) = V m c main_arg4 := by
    funext y
    show V m c main_arg4 (((cfg0.win 4).blk t).view.emb y) = V m c main_arg4 y
    refine congrArg (V m c main_arg4) (funext fun a => Fin.ext ?_)
    match a with
    | ⟨0, _⟩ => show win0_4.index t (0 : Fin 1) * 1 + 1 * (y 0).val = (y 0).val; omega
  rw [hx, h1, h2, h3, h4]
  funext j
  -- entry j of the block written back sits at row 4096·t + j of the result
  have hemb : ((cfg0.win 5).blk t).view.emb j
      = ix2 ⟨t.val * 4096 + (j 0).val, by have : (j 0).val < 4096 := (j 0).isLt; omega⟩ ⟨(j 1).val, (j 1).isLt⟩ := by
    funext a; apply Fin.ext
    match a with
    | ⟨0, _⟩ => show win0_5.index t (0 : Fin 2) * 4096 + 1 * (j 0).val = t.val * 4096 + (j 0).val; omega
    | ⟨1, _⟩ => show win0_5.index t (1 : Fin 2) * 1 + 1 * (j 1).val = (j 1).val; omega
  show _ = whole m c (((cfg0.win 5).blk t).view.emb j)
  rw [hemb]
  rfl

/-- An index of the result is in point t's block iff each coordinate lies in the block's range on its axis. -/
theorem mem_blk (t : Fin cfg0.N) (i : S262144x1.Idx) :
    i ∈ ((cfg0.win 5).blk t).view.set ↔ ∀ a : Fin 2, win0_5.index t a * S4096x1.size a ≤ (i a).val
      ∧ (i a).val < win0_5.index t a * S4096x1.size a + S4096x1.size a := by
  show i ∈ ((View.whole main_v0).slice (win0_5.rect t)).set ↔ _
  rw [View.set_slice_whole, Rect.mem_set_unit]
  exact Iff.rfl

/-- Every row of the result is written by some point: row r by point r / 4096. -/
theorem cover (i : S262144x1.Idx) :
    ∃ t : Fin cfg0.N, (cfg0.win 5).flush t = true ∧ i ∈ ((cfg0.win 5).blk t).view.set := by
  have hi0 : (i 0).val < 262144 := (i 0).isLt
  have hi1 : (i 1).val < 1 := (i 1).isLt
  have hq : (i 0).val / 4096 < 64 := by omega
  obtain ⟨-, -, -, -, -, -, -, -, e50, e51⟩ := idx_facts ⟨(i 0).val / 4096, hq⟩
  refine ⟨⟨(i 0).val / 4096, hq⟩, flush0_5 _, ?_⟩
  rw [mem_blk]
  intro a
  match a with
  | ⟨0, _⟩ =>
    show win0_5.index ⟨(i 0).val / 4096, hq⟩ (0 : Fin 2) * 4096 ≤ (i 0).val
      ∧ (i 0).val < win0_5.index ⟨(i 0).val / 4096, hq⟩ (0 : Fin 2) * 4096 + 4096
    rw [e50]
    show (i 0).val / 4096 * 4096 ≤ (i 0).val ∧ (i 0).val < (i 0).val / 4096 * 4096 + 4096
    omega
  | ⟨1, _⟩ =>
    show win0_5.index ⟨(i 0).val / 4096, hq⟩ (1 : Fin 2) * 1 ≤ (i 1).val
      ∧ (i 1).val < win0_5.index ⟨(i 0).val / 4096, hq⟩ (1 : Fin 2) * 1 + 1
    rw [e51]
    omega

/-- The result array after the run is `affineTanh` of the argument arrays on all rows. -/
theorem final (c : Dev nD) : (dats m 0 c).arrAt 5 cfg0.N = whole m c :=
  (dats m 0 c).arrAt_eq_of_cover 5 (whole m c) (fun t _ => flushed_eq m c t) cover

/-- The kernel's run: every weakly fair execution ends with the result array at `affineTanh` of the arguments as
    launched, and the arguments unchanged. -/
theorem run : θ_run defs (onTc (τ := τ) (main (F := Ideal))) ⟨m, fun _ => 0, ρ⟩ fun r => ∀ c : Dev nD,
      r.2.mem ((c : Thread nD τ).loc main_v0)
        = affineTanh (n := 262144) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefSide.lean ====
/-
  The reference, read index by index: it masks the weight column and the bias, takes the product of the whole
  [262144 × 512] matrix with the masked column, adds the masked bias to every row and applies tanh. Entry (p, 0)
  is therefore `tanh (row p against the masked column + the masked bias)`: the function `affineTanh` on all rows.
-/
import proofs.«140416_j31482110280318_1_alg».proof.Proof.Gen.ReferenceIdeal.Read
import proofs.«140416_j31482110280318_1_alg».proof.Proof.MaskedAffine

noncomputable section

namespace Cert.ReferenceIdeal.RefValue

open Cert.ReferenceIdeal Cert.ReferenceIdeal.Gen Cert.ReferenceIdeal.Read
open Idealize.ShloMosaic Idealize.ShloMosaic.ValueIdx Idealize.ShloMosaic.SageSpec Cert.MaskedAffine

/-- The reference's product contracts axis 1 of the matrix with axis 0 of the column: rows by columns. -/
theorem plainDot : PlainDot dot_S262144x512_S512x1_S262144x1_1_0_0_1_n_n where
  rank := rfl
  size := fun _ => rfl
  l0 := lhs_main_v4_0
  l1 := fun i q _ => lhs_main_v4_1 i q
  r0 := fun i q _ => rhs_main_v4_0 i q
  r1 := rhs_main_v4_1

/-- The reference's last stage is `affineTanh` of its five arguments, on all 262144 rows: the product read at (p, 0)
    is row p against the masked column, the twice-broadcast bias read anywhere is the masked bias, and the host's
    tanh is the extended-real tanh. -/
theorem result_eq (x0 : FVec Ideal S262144x512 .f32) (x1 : FVec Ideal S512x1 .f32) (x2 : FVec Ideal S1 .f32)
    (x3 : Vec Ideal S512x1 .i32) (x4 : Vec Ideal S1 .i32) :
    val_main_v8 (F := Ideal) x0 x1 x2 x3 x4 = affineTanh (n := 262144) x0 x1 x2 x3 x4 := by
  funext i
  rw [val_main_v8_apply, val_main_v7_apply, val_main_v6_apply, val_main_v5_apply]
  unfold val_main_v4
  show Ideal.tanh (Host.dotGeneral dot_S262144x512_S512x1_S262144x1_1_0_0_1_n_n none x0 (val_main_v1 (F := Ideal) x1 x3) i
      + val_main_v3 (F := Ideal) x2 x4 _) = _
  rw [dotGeneral_at plainDot, one_apply (val_main_v3 (F := Ideal) x2 x4)]
  rfl

end Cert.ReferenceIdeal.RefValue

end
-- ==== Proof.lean ====
/-
  The kernel and its reference compute one function over the extended reals. Both mask a weight column of 512
  entries and a one-entry bias (entry times the integer its mask holds), and both return, for each of the 262144 rows
  of `x`, `tanh (row · masked column + masked bias)`. The reference takes one product of the whole matrix with the
  column; the kernel walks 64 blocks of 4096 rows, and on each takes the block's product on the matrix unit into a
  zero accumulator after a change of float format, which is the identity on the extended reals. A row of the result
  depends only on the same row of `x`, so the 64 blocks written back are the blocks of the one whole-array function,
  and they cover every row. No algebraic law beyond reading both products as the same row-by-column sum is needed,
  so the inputs' finiteness is never used.

  The three frames: the two kernel programs' are the frame certificates of their one pipelined region; the
  reference's is its run with the result dropped. The kernel's idealization rewrote no operation, so that claim is
  trivial.
-/
import proofs.«140416_j31482110280318_1_alg».proof.Defs
import proofs.«140416_j31482110280318_1_alg».proof.Proof.Gen.Kernel
import proofs.«140416_j31482110280318_1_alg».proof.Proof.Gen.Kernel.Skeleton
import proofs.«140416_j31482110280318_1_alg».proof.Proof.Gen.Kernel.Launch
import proofs.«140416_j31482110280318_1_alg».proof.Proof.Gen.Kernel.Points
import proofs.«140416_j31482110280318_1_alg».proof.Proof.Gen.Kernel.Frame
import proofs.«140416_j31482110280318_1_alg».proof.Proof.Gen.KernelIdeal
import proofs.«140416_j31482110280318_1_alg».proof.Proof.Gen.KernelIdeal.Skeleton
import proofs.«140416_j31482110280318_1_alg».proof.Proof.Gen.KernelIdeal.Launch
import proofs.«140416_j31482110280318_1_alg».proof.Proof.Gen.KernelIdeal.Points
import proofs.«140416_j31482110280318_1_alg».proof.Proof.Gen.KernelIdeal.Frame
import proofs.«140416_j31482110280318_1_alg».proof.Proof.Gen.ReferenceIdeal
import proofs.«140416_j31482110280318_1_alg».proof.Proof.Gen.Pre_finite_inputs
import proofs.«140416_j31482110280318_1_alg».proof.Proof.KernelSide
import proofs.«140416_j31482110280318_1_alg».proof.Proof.RefSide
import Idealize.ShloMosaic.Adequacy
import Idealize.ShloMosaic.Init

noncomputable section

namespace Cert.Proof

open Idealize.ShloMosaic Idealize.ShloMosaic.TcCoe Idealize.SL.Sem

/-- Both idealized programs, from memories that agree on the five arguments, end with the result array at
    `affineTanh` of those arguments: the kernel by its 64 blocks, the reference by its one product. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v8_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
